-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S64x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S200 : Shape := ⟨1, ![200]⟩
abbrev S200x1 : Shape := ⟨2, ![200, 1]⟩

abbrev nBuf : Space → Nat
  | .hbm => 6
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S64x128, .f32⟩
  | .hbm, ⟨4, _⟩ => ⟨S10000x64, .bf16⟩
  | .hbm, ⟨5, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S64x128, .f32⟩
  | .local _ .vmem, ⟨5, _⟩ => ⟨S200x64, .bf16⟩
  | .local _ .vmem, ⟨6, _⟩ => ⟨S200x64, .bf16⟩
  | .local _ .vmem, ⟨7, _⟩ => ⟨S10000x128, .bf16⟩
  | .local _ .vmem, ⟨8, _⟩ => ⟨S10000x64, .bf16⟩
  | .local _ .vmem, ⟨9, _⟩ => ⟨S200x10000, .f32⟩
  | .local _ .vmem, ⟨10, _⟩ => ⟨S200x10000, .f32⟩
  | .local _ .vmem, ⟨11, _⟩ => ⟨S200x64, .f32⟩
  | .local _ .vmem, ⟨12, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S64x128_S64x128_0_0 : ∀ a, (![0, 0] : Fin 2 → Nat) a + S64x128.size a ≤ S64x128.size a
  h_S64x128 : 0 < S64x128.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S200x64_S200 : S200x64.Reduces [1] S200
  shapeCasts_S200_S200x1 : S200.ShapeCasts S200x1
  broadcasts_S200x1_S200x64 : S200x1.Broadcasts S200x64
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  dot_S200x128_S64x128_S200x64_1_1_0_0_n_n_wf : DotDims.WF S200x128 S64x128 S200x64 [1] [1] [0] [0] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x64.size a ≤ S10000x64.size a
  hwx0_4 : ∀ i : grid0.Coords, EltTy.bits .bf16 = 32 ∨ (Rect.block (s := S10000x64) S200x64.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .bf16 = 32 ∨ (Rect.block (s := S10000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64.size a ≤ S10000x64.size a
  hwx1_2 : ∀ i : grid1.Coords, EltTy.bits .f32 = 32 ∨ (Rect.block (s := S10000x64) S200x64.size (cc1_transform_2 i) (hinb1_2 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S64x128_S200x64_1_1_0_0_n_n : DotDims S200x128 S64x128 S200x64 where
  lhsContracting := [1]
  rhsContracting := [1]
  lhsNonContracting := [0]
  rhsNonContracting := [0]
  lhsBatch := []
  rhsBatch := []
  wf := dot_S200x128_S64x128_S200x64_1_1_0_0_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S64x128 : Shape := ⟨2, ![64, 128]⟩
abbrev S_ : Shape := ⟨0, ![]⟩
abbrev S128x64 : Shape := ⟨2, ![128, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S64x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S128x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S10000x64, .f32⟩
  | .hbm, ⟨27, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v7 : Ref sig .tc := ⟨.hbm, 27, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  transposes_S64x128_S128x64_1_0 : S64x128.Transposes [1, 0] S128x64
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KRegion0.lean ====
/-
  The first pallas_call (projection, aggregation, clamp, second projection) as a pipeline region, at any contents `V`
  of the core's buffers on entry. Windows 0, 1, 3 are the whole arrays `x`, `W1`, `W2` (fetched once), window 2 the 200
  rows of `adj` of the point, window 4 the 200 × 64 block of the intermediate result. At the grid's first point the
  body stores `x · W1ᵀ` over the whole scratch buffer; at every point it reads the scratch back and stores its
  second payload over the whole output block. So after the first point the scratch holds one named array for the
  rest of the region: that is the region's invariant.
-/
import proofs.«161516_g87050397155999_cont_sun_m_51_2_alg».proof.Proof.Gen.Kernel.Launch
import proofs.«161516_g87050397155999_cont_sun_m_51_2_alg».proof.Proof.Gen.Kernel.Skeleton
import proofs.«161516_g87050397155999_cont_sun_m_51_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rA0 : Rect S200x10000 := Rect.unit (s := S200x10000) ![0, 0] S200x10000.size inb_S200x10000_S200x10000_0_0
abbrev rW2 : Rect S64x128 := Rect.unit (s := S64x128) ![0, 0] S64x128.size inb_S64x128_S64x128_0_0
abbrev rO0 : Rect S200x64 := Rect.unit (s := S200x64) ![0, 0] S200x64.size inb_S200x64_S200x64_0_0

/-- The scratch buffer as a memref. -/
abbrev scM : Memref sig .tc .vmem S10000x128 .bf16 := Memref.whole cc0_scratch0

/-- What the first point leaves in the scratch: its one store, of the first payload of `x` and `W1`. -/
def sc0 (x : Vec F S10000x128 .f32) (w1 : Vec F S128x128 .f32) : Vec F S10000x128 .bf16 :=
  View.canon [⟨rX, k0_pay1 (View.ld x rX) (View.ld w1 rW1)⟩]

/-- What the body leaves in the output block's buffer: its one store, of the second payload of the adjacency rows,
    the scratch and `W2`. -/
def out0_4 (a : Vec F S200x10000 .f32) (s : Vec F S10000x128 .bf16) (w2 : Vec F S64x128 .f32) : Vec F S200x64 .bf16 :=
  View.canon [⟨rO0, k0_pay2 (View.ld a rA0) (View.ld s rX) (View.ld w2 rW2)⟩]

/-- Those stores cover their buffers. -/
theorem cover0_4 (p0 : Vec F S200x64 .bf16) (y : S200x64.Idx) :
    ∃ pc ∈ ([⟨rO0, p0⟩] : List (View.Piece (Elt F) S200x64 .bf16)), y ∈ pc.1.set :=
  View.cover_of_tiled [⟨rO0, p0⟩] S200x64.size (by rfl) y
theorem cover0_s (p0 : Vec F S10000x128 .bf16) (y : S10000x128.Idx) :
    ∃ pc ∈ ([⟨rX, p0⟩] : List (View.Piece (Elt F) S10000x128 .bf16)), y ∈ pc.1.set :=
  View.cover_of_tiled [⟨rX, p0⟩] S10000x128.size (by rfl) y

/-- The body's one branch: whether the grid coordinate is zero. -/
abbrev cond0 (i : grid0.Coords) : Prop :=
  Scalar.cmpi .ne (Scalar.extui (Scalar.cmpi .eq (BitVec.ofNat 32 (i 0).val) 0#32) : BitVec 32) 0#32 = 1#1

/-- It is taken at the first point only. -/
theorem hcond0 : ∀ t : Fin cfg0.N, cond0 (grid0.coords t) ↔ t.val = 0 :=
  (by decide +kernel : ∀ t : Fin grid0.N, cond0 (grid0.coords t) ↔ t.val = 0)

set_option maxHeartbeats 2000000 in
/-- The body at the first point, on whole memrefs, the inputs' at read contents and the output's and the scratch at
    anything: the scratch ends at `sc0`, the output at `out0_4` of that. -/
theorem sound_kernel0_first (c : Dev nD) (E : Set ℕ) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S64x128 .f32) (harg4 : arg4.IsWhole)
    (arg5 : Memref sig .tc .vmem S200x64 .bf16) (harg5 : arg5.IsWhole) (arg6 : Memref sig .tc .vmem S10000x128 .bf16) (harg6 : arg6.IsWhole)
    (x : Vec F S10000x128 .f32) (w1 : Vec F S128x128 .f32) (a : Vec F S200x10000 .f32) (w2 : Vec F S64x128 .f32) (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare w2 ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w1 ∗ owns (c : Thread nD τ) arg3 fullShare a
            ∗ owns (c : Thread nD τ) arg4 fullShare w2 ∗ owns (c : Thread nD τ) arg5 fullShare (out0_4 a (sc0 x w1) w2)
            ∗ owns (c : Thread nD τ) arg6 fullShare (sc0 x w1)) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover0_4 _)]
    sl_unfold_words
    rw [View.readCov_eq_canon_ld _ _ _ (cover0_s _)]
    rfl
  · iexists _; isplitr
    swap; · iexact H6
    ipureintro
    sl_unfold_words
    exact View.read_writes_eq_canon _ _ _ (cover0_s _)

set_option maxHeartbeats 2000000 in
/-- The body at a later point, the scratch at read contents `s`: it is left as it was, and the output ends at
    `out0_4` of it. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S64x128 .f32) (harg4 : arg4.IsWhole)
    (arg5 : Memref sig .tc .vmem S200x64 .bf16) (harg5 : arg5.IsWhole) (arg6 : Memref sig .tc .vmem S10000x128 .bf16) (harg6 : arg6.IsWhole)
    (x : Vec F S10000x128 .f32) (w1 : Vec F S128x128 .f32) (a : Vec F S200x10000 .f32) (w2 : Vec F S64x128 .f32) (s : Vec F S10000x128 .bf16)
    (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare w2 ∗ (∃ d, owns (c : Thread nD τ) arg5 fullShare d) ∗ owns (c : Thread nD τ) arg6 fullShare s
        ∗ (iprop(owns (c : Thread nD τ) arg1 fullShare x ∗ owns (c : Thread nD τ) arg2 fullShare w1 ∗ owns (c : Thread nD τ) arg3 fullShare a
            ∗ owns (c : Thread nD τ) arg4 fullShare w2 ∗ owns (c : Thread nD τ) arg5 fullShare (out0_4 a s w2)
            ∗ owns (c : Thread nD τ) arg6 fullShare s) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    exact View.read_writes_eq_canon _ _ _ (cover0_4 _)
  · iexists f6; isplitr; · ipureintro; rfl
    iexact H6

/-! ## The invariant and the proof data -/

/-- The grid's first point. -/
abbrev t00 : Fin cfg0.N := ⟨0, by decide⟩

/-- What the scratch holds from the first point on, from the arrays as the region finds them. -/
def scV (c : Dev nD) : Vec F S10000x128 .bf16 := sc0 (iblk0 V c 0 t00) (iblk0 V c 1 t00)

/-- The other pallas_call's five staging buffers, each whole at some contents: this region never touches them. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers this pallas_call does not stage: its scratch and those five. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest5 (F := F) c) := by
  rw [scopedRest0_eq]; rfl

/-- The region's invariant before point `n`: before the first point every scoped buffer it does not stage at anything
    (and the generator register at some state); afterwards the scratch at `scV`. -/
def Phi0 (c : Dev nD) (n : ℕ) : sProp 𝕄 :=
  if n = 0 then Pipeline.ΦA spec0 c
  else iprop(owns (c : Thread nD τ) scM fullShare (scV V c) ∗ rest5 (F := F) c ∗ (∃ r, prngReg c r))

theorem Phi0_zero (c : Dev nD) : Phi0 V c 0 = Pipeline.ΦA spec0 c := if_pos rfl
theorem Phi0_pos (c : Dev nD) (n : ℕ) (h : n ≠ 0) :
    Phi0 V c n = iprop(owns (c : Thread nD τ) scM fullShare (scV V c) ∗ rest5 (F := F) c ∗ (∃ r, prngReg c r)) := if_neg h

/-- The proof data of this pipeline on core `c`: the arrays as the region finds them; after the body each input's
    buffer at its block and the output's at `out0_4` of the adjacency rows, the scratch's contents and `W2`; the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 2 t) (scV V c) (iblk0 V c 3 t)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 2 t) (scV V c) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point. At the first point the invariant hands it the scratch at anything and takes it back at
    `scV`; at a later point it hands it the scratch at `scV` and takes it back unchanged. The input memrefs hold their
    blocks; the other scoped buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    Phi0_pos V c (t.val + 1) (Nat.succ_ne_zero _),
    after0_0, after0_1, after0_2, after0_3, after0_4]
  by_cases hz : t.val = 0
  · obtain rfl : t = t00 := Fin.ext hz
    rw [show (t00 : Fin cfg0.N).val = 0 from rfl, Phi0_zero]
    unfold Pipeline.ΦA
    rw [scopedRest0_split]
    iintro ⟨⟨⟨⟨%fs, HS⟩, Hr5⟩, Hg⟩, Ho, ⟨%d0, H0⟩, ⟨%d1, H1⟩, ⟨%d2, H2⟩, ⟨%d3, H3⟩, ⟨%d4, H4⟩⟩
    iapply (sound_kernel0_first c Set.univ _ ((hcond0 t00).mpr rfl) _ _ _ _ _ _ _ _ _ _ _ _
      (iblk0 V c 0 t00) (iblk0 V c 1 t00) (iblk0 V c 2 t00) (iblk0 V c 3 t00) _)
    isplitl [H0]; · iexact H0
    isplitl [H1]; · iexact H1
    isplitl [H2]; · iexact H2
    isplitl [H3]; · iexact H3
    isplitl [H4]; · iexists _; iexact H4
    isplitl [HS]
    · iexists fs; rw [owns_whole]; iexact HS
    iintro ⟨H0, H1, H2, H3, H4, HS⟩
    isplitl [HS Hr5 Hg]
    · isplitl [HS]; · iexact HS
      isplitl [Hr5]; · iexact Hr5
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨HS, Hr5, Hg⟩, Ho, ⟨%d0, H0⟩, ⟨%d1, H1⟩, ⟨%d2, H2⟩, ⟨%d3, H3⟩, ⟨%d4, H4⟩⟩
    iapply (sound_kernel0_later c Set.univ _ (fun h => hz ((hcond0 t).mp h)) _ _ _ _ _ _ _ _ _ _ _ _
      (iblk0 V c 0 t) (iblk0 V c 1 t) (iblk0 V c 2 t) (iblk0 V c 3 t) (scV V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr5 Hg]
    · isplitl [HS]; · iexact HS
      isplitl [Hr5]; · iexact Hr5
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = Phi0 V c 0 from rfl, Phi0_zero]

/-- After the last point the invariant gives the scoped buffers back, the scratch's named contents forgotten. -/
theorem Phi0_out (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by decide), owns_whole]
  unfold Pipeline.ΦA
  rw [scopedRest0_split]
  iintro ⟨HS, Hr5, Hg⟩
  isplitl [HS Hr5]
  · isplitl [HS]
    · iexists _; iexact HS
    iexact Hr5
  iexact Hg

end Cert.Kernel.Hand

end
-- ==== Proof.KRegion1.lean ====
/-
  The second pallas_call (the log-softmax pass) as a pipeline region, at any contents `V` of the core's buffers on
  entry: window 0 is the whole 10000 × 64 array the first pass produced, window 1 the 200 rows of `adj` of the point,
  window 2 the 200 × 64 block of the result. The body loads both inputs whole and stores its one payload over the
  whole output block; it keeps nothing between points.
-/
import proofs.«161516_g87050397155999_cont_sun_m_51_2_alg».proof.Proof.Gen.Kernel.Launch
import proofs.«161516_g87050397155999_cont_sun_m_51_2_alg».proof.Proof.Gen.Kernel.Skeleton
import proofs.«161516_g87050397155999_cont_sun_m_51_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-buffer rectangles the body reads and writes through. -/
abbrev rH : Rect S10000x64 := Rect.unit (s := S10000x64) ![0, 0] S10000x64.size inb_S10000x64_S10000x64_0_0
abbrev rA1 : Rect S200x10000 := Rect.unit (s := S200x10000) ![0, 0] S200x10000.size inb_S200x10000_S200x10000_0_0
abbrev rO1 : Rect S200x64 := Rect.unit (s := S200x64) ![0, 0] S200x64.size inb_S200x64_S200x64_0_0

/-- What the body leaves in the output block's buffer: its one store, of the payload of the two loaded inputs. -/
def out1_2 (h : Vec F S10000x64 .bf16) (a : Vec F S200x10000 .f32) : Vec F S200x64 .f32 :=
  View.canon [⟨rO1, k1_pay1 (View.ld a rA1) (View.ld h rH)⟩]

/-- That store covers the buffer. -/
theorem cover1_2 (p0 : Vec F S200x64 .f32) (y : S200x64.Idx) :
    ∃ pc ∈ ([⟨rO1, p0⟩] : List (View.Piece (Elt F) S200x64 .f32)), y ∈ pc.1.set :=
  View.cover_of_tiled [⟨rO1, p0⟩] S200x64.size (by rfl) y

set_option maxHeartbeats 1000000 in
/-- The body on whole staging memrefs, the inputs' at read contents and the output's at anything, runs to the
    continuation holding the inputs' as they were and the output's at `out1_2` of them. -/
theorem sound_kernel1 (c : Dev nD) (E : Set ℕ) (i : grid1.Coords) (arg1 : Memref sig .tc .vmem S10000x64 .bf16) (harg1 : arg1.IsWhole)
    (arg2 : Memref sig .tc .vmem S200x10000 .f32) (harg2 : arg2.IsWhole) (arg3 : Memref sig .tc .vmem S200x64 .f32) (harg3 : arg3.IsWhole)
    (h : Vec F S10000x64 .bf16) (a : Vec F S200x10000 .f32) (K : PUnit → sProp 𝕄) :
    iprop(owns (c : Thread nD τ) arg1 fullShare h ∗ owns (c : Thread nD τ) arg2 fullShare a ∗ (∃ d, owns (c : Thread nD τ) arg3 fullShare d)
        ∗ (iprop(owns (c : Thread nD τ) arg1 fullShare h ∗ owns (c : Thread nD τ) arg2 fullShare a ∗ owns (c : Thread nD τ) arg3 fullShare (out1_2 h a)) -∗ K ⟨⟩))
      ⊢ wp frame (wpE (defs₀ (F := F)) Variants.none c none) E (cc1__pass_b_kernel i arg1 harg1 arg2 harg2 arg3 harg3) K := by
  simp only [cc1__pass_b_kernel_eq_skeleton]; unfold cc1__pass_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-- The proof data of this pipeline on core `c`: the arrays as the region finds them; after the body each input's
    buffer at its block and the output's at `out1_2` of the input blocks; the invariant the scoped buffers no window
    stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as the list of its two pipeline regions, from the launch memory to the return: the buffer
  contents at each boundary (the launch memory; after the first region, its arrays at what its write-backs leave;
  after the second likewise), each region's record around the thread state "every unscoped buffer at the boundary's
  contents, the generator register at some state, nothing owed", and the run: every weakly fair execution terminates,
  nothing faulting, with every unscoped buffer at the last boundary's contents. The argument arrays are read back
  through the boundaries to the launch memory; the result array is what the second region's write-backs leave.
-/
import proofs.«161516_g87050397155999_cont_sun_m_51_2_alg».proof.Proof.KRegion0
import proofs.«161516_g87050397155999_cont_sun_m_51_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a region reads an argument through an input window or bypasses it -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg1 (c : Dev nD) : W1 m ρ c (Proc.devRef .tc main_arg1) = m ((c : Thread nD τ).loc main_arg1) :=
  (W1_arr m ρ c 2).trans (((dat0 (V0 m ρ) c).arrAt_in 2 rfl _).trans (A_eq0 (V0 m ρ) c 2))
theorem W1_main_arg3 (c : Dev nD) : W1 m ρ c (Proc.devRef .tc main_arg3) = m ((c : Thread nD τ).loc main_arg3) :=
  (W1_arr m ρ c 3).trans (((dat0 (V0 m ρ) c).arrAt_in 3 rfl _).trans (A_eq0 (V0 m ρ) c 3))
/-- The intermediate array is what the first region's write-backs leave. -/
theorem W1_main_v0 (c : Dev nD) : W1 m ρ c (Proc.devRef .tc main_v0) = (dat0 (V0 m ρ) c).arrAt 4 cfg0.N :=
  W1_arr m ρ c 4

theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg1 (c : Dev nD) : W2 m ρ c (Proc.devRef .tc main_arg1) = m ((c : Thread nD τ).loc main_arg1) :=
  (W2_arr m ρ c 1).trans ((((dat1 (V1 m ρ) c).arrAt_in 1 rfl _).trans (A_eq1 (V1 m ρ) c 1)).trans (W1_main_arg1 m ρ c))
/-- The result array is what the second region's write-backs leave. -/
theorem W2_main_v1 (c : Dev nD) : W2 m ρ c (Proc.devRef .tc main_v1) = (dat1 (V1 m ρ) c).arrAt 2 cfg1.N :=
  W2_arr m ρ c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its `owes`, at
    nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region over the thread state: entered from every unscoped buffer at the launch contents, left at `W1`.
    Its arrays are split out of the unscoped buffers and put back at the exit contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V0 m ρ) c)
    unfold Pipeline.ΦA
    iintro ⟨Hp, -, Hr⟩
    isplitl [Hr]; · iexact Hr
    iexact Hp
  hout c := by
    rw [Pipeline.ownSems0_none]
    refine (Phi0_out (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from `W1`, left at `W2` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m ρ) () defs₀ 𝒱₀ L lv) :=
  [ .region (reg0 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The same with the five buffers the claims speak of read out: the result array at what the second region's
    write-backs leave, each argument array as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The frame claim at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.Kernel.Hand

end
-- ==== Proof.KIRegion0.lean ====
/-
  The first pallas_call (projection, aggregation, clamp, second projection) as a pipeline region, at any contents `V`
  of the core's buffers on entry. Windows 0, 1, 3 are the whole arrays `x`, `W1`, `W2` (fetched once), window 2 the 200
  rows of `adj` of the point, window 4 the 200 × 64 block of the intermediate result. At the grid's first point the
  body stores `x · W1ᵀ` over the whole scratch buffer; at every point it reads the scratch back and stores its
  second payload over the whole output block. So after the first point the scratch holds one named array for the
  rest of the region: that is the region's invariant.
-/
import proofs.«161516_g87050397155999_cont_sun_m_51_2_alg».proof.Proof.Gen.KernelIdeal.Launch
import proofs.«161516_g87050397155999_cont_sun_m_51_2_alg».proof.Proof.Gen.KernelIdeal.Skeleton
import proofs.«161516_g87050397155999_cont_sun_m_51_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rX : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rA0 : Rect S200x10000 := Rect.unit (s := S200x10000) ![0, 0] S200x10000.size inb_S200x10000_S200x10000_0_0
abbrev rW2 : Rect S64x128 := Rect.unit (s := S64x128) ![0, 0] S64x128.size inb_S64x128_S64x128_0_0
abbrev rO0 : Rect S200x64 := Rect.unit (s := S200x64) ![0, 0] S200x64.size inb_S200x64_S200x64_0_0

/-- The scratch buffer as a memref. -/
abbrev scM : Memref sig .tc .vmem S10000x128 .bf16 := Memref.whole cc0_scratch0

/-- What the first point leaves in the scratch: its one store, of the first payload of `x` and `W1`. -/
def sc0 (x : Vec F S10000x128 .f32) (w1 : Vec F S128x128 .f32) : Vec F S10000x128 .bf16 :=
  View.canon [⟨rX, k0_pay1 (View.ld x rX) (View.ld w1 rW1)⟩]

/-- What the body leaves in the output block's buffer: its one store, of the second payload of the adjacency rows,
    the scratch and `W2`. -/
def out0_4 (a : Vec F S200x10000 .f32) (s : Vec F S10000x128 .bf16) (w2 : Vec F S64x128 .f32) : Vec F S200x64 .bf16 :=
  View.canon [⟨rO0, k0_pay2 (View.ld a rA0) (View.ld s rX) (View.ld w2 rW2)⟩]

/-- Those stores cover their buffers. -/
theorem cover0_4 (p0 : Vec F S200x64 .bf16) (y : S200x64.Idx) :
    ∃ pc ∈ ([⟨rO0, p0⟩] : List (View.Piece (Elt F) S200x64 .bf16)), y ∈ pc.1.set :=
  View.cover_of_tiled [⟨rO0, p0⟩] S200x64.size (by rfl) y
theorem cover0_s (p0 : Vec F S10000x128 .bf16) (y : S10000x128.Idx) :
    ∃ pc ∈ ([⟨rX, p0⟩] : List (View.Piece (Elt F) S10000x128 .bf16)), y ∈ pc.1.set :=
  View.cover_of_tiled [⟨rX, p0⟩] S10000x128.size (by rfl) y

/-- The body's one branch: whether the grid coordinate is zero. -/
abbrev cond0 (i : grid0.Coords) : Prop :=
  Scalar.cmpi .ne (Scalar.extui (Scalar.cmpi .eq (BitVec.ofNat 32 (i 0).val) 0#32) : BitVec 32) 0#32 = 1#1

/-- It is taken at the first point only. -/
theorem hcond0 : ∀ t : Fin cfg0.N, cond0 (grid0.coords t) ↔ t.val = 0 :=
  (by decide +kernel : ∀ t : Fin grid0.N, cond0 (grid0.coords t) ↔ t.val = 0)

set_option maxHeartbeats 2000000 in
/-- The body at the first point, on whole memrefs, the inputs' at read contents and the output's and the scratch at
    anything: the scratch ends at `sc0`, the output at `out0_4` of that. -/
theorem sound_kernel0_first (c : Dev nD) (E : Set ℕ) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S64x128 .f32) (harg4 : arg4.IsWhole)
    (arg5 : Memref sig .tc .vmem S200x64 .bf16) (harg5 : arg5.IsWhole) (arg6 : Memref sig .tc .vmem S10000x128 .bf16) (harg6 : arg6.IsWhole)
    (x : Vec F S10000x128 .f32) (w1 : Vec F S128x128 .f32) (a : Vec F S200x10000 .f32) (w2 : Vec F S64x128 .f32) (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare w2 ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w1 ∗ owns (c : Thread nD τ) arg3 fullShare a
            ∗ owns (c : Thread nD τ) arg4 fullShare w2 ∗ owns (c : Thread nD τ) arg5 fullShare (out0_4 a (sc0 x w1) w2)
            ∗ owns (c : Thread nD τ) arg6 fullShare (sc0 x w1)) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover0_4 _)]
    sl_unfold_words
    rw [View.readCov_eq_canon_ld _ _ _ (cover0_s _)]
    rfl
  · iexists _; isplitr
    swap; · iexact H6
    ipureintro
    sl_unfold_words
    exact View.read_writes_eq_canon _ _ _ (cover0_s _)

set_option maxHeartbeats 2000000 in
/-- The body at a later point, the scratch at read contents `s`: it is left as it was, and the output ends at
    `out0_4` of it. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S64x128 .f32) (harg4 : arg4.IsWhole)
    (arg5 : Memref sig .tc .vmem S200x64 .bf16) (harg5 : arg5.IsWhole) (arg6 : Memref sig .tc .vmem S10000x128 .bf16) (harg6 : arg6.IsWhole)
    (x : Vec F S10000x128 .f32) (w1 : Vec F S128x128 .f32) (a : Vec F S200x10000 .f32) (w2 : Vec F S64x128 .f32) (s : Vec F S10000x128 .bf16)
    (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare w2 ∗ (∃ d, owns (c : Thread nD τ) arg5 fullShare d) ∗ owns (c : Thread nD τ) arg6 fullShare s
        ∗ (iprop(owns (c : Thread nD τ) arg1 fullShare x ∗ owns (c : Thread nD τ) arg2 fullShare w1 ∗ owns (c : Thread nD τ) arg3 fullShare a
            ∗ owns (c : Thread nD τ) arg4 fullShare w2 ∗ owns (c : Thread nD τ) arg5 fullShare (out0_4 a s w2)
            ∗ owns (c : Thread nD τ) arg6 fullShare s) -∗ K ⟨⟩))
      ⊢ wp frame (wpE (defs₀ (F := F)) Variants.none c none) E (cc0__pass_a_kernel i arg1 harg1 arg2 harg2 arg3 harg3 arg4 harg4 arg5 harg5 arg6 harg6) K := by
  simp only [cc0__pass_a_kernel_eq_skeleton]; unfold cc0__pass_a_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    exact View.read_writes_eq_canon _ _ _ (cover0_4 _)
  · iexists f6; isplitr; · ipureintro; rfl
    iexact H6

/-! ## The invariant and the proof data -/

/-- The grid's first point. -/
abbrev t00 : Fin cfg0.N := ⟨0, by decide⟩

/-- What the scratch holds from the first point on, from the arrays as the region finds them. -/
def scV (c : Dev nD) : Vec F S10000x128 .bf16 := sc0 (iblk0 V c 0 t00) (iblk0 V c 1 t00)

/-- The other pallas_call's five staging buffers, each whole at some contents: this region never touches them. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers this pallas_call does not stage: its scratch and those five. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ rest5 (F := F) c) := by
  rw [scopedRest0_eq]; rfl

/-- The region's invariant before point `n`: before the first point every scoped buffer it does not stage at anything
    (and the generator register at some state); afterwards the scratch at `scV`. -/
def Phi0 (c : Dev nD) (n : ℕ) : sProp 𝕄 :=
  if n = 0 then Pipeline.ΦA spec0 c
  else iprop(owns (c : Thread nD τ) scM fullShare (scV V c) ∗ rest5 (F := F) c ∗ (∃ r, prngReg c r))

theorem Phi0_zero (c : Dev nD) : Phi0 V c 0 = Pipeline.ΦA spec0 c := if_pos rfl
theorem Phi0_pos (c : Dev nD) (n : ℕ) (h : n ≠ 0) :
    Phi0 V c n = iprop(owns (c : Thread nD τ) scM fullShare (scV V c) ∗ rest5 (F := F) c ∗ (∃ r, prngReg c r)) := if_neg h

/-- The proof data of this pipeline on core `c`: the arrays as the region finds them; after the body each input's
    buffer at its block and the output's at `out0_4` of the adjacency rows, the scratch's contents and `W2`; the invariant
    `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 2 t) (scV V c) (iblk0 V c 3 t)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 2 t) (scV V c) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point. At the first point the invariant hands it the scratch at anything and takes it back at
    `scV`; at a later point it hands it the scratch at `scV` and takes it back unchanged. The input memrefs hold their
    blocks; the other scoped buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    Phi0_pos V c (t.val + 1) (Nat.succ_ne_zero _),
    after0_0, after0_1, after0_2, after0_3, after0_4]
  by_cases hz : t.val = 0
  · obtain rfl : t = t00 := Fin.ext hz
    rw [show (t00 : Fin cfg0.N).val = 0 from rfl, Phi0_zero]
    unfold Pipeline.ΦA
    rw [scopedRest0_split]
    iintro ⟨⟨⟨⟨%fs, HS⟩, Hr5⟩, Hg⟩, Ho, ⟨%d0, H0⟩, ⟨%d1, H1⟩, ⟨%d2, H2⟩, ⟨%d3, H3⟩, ⟨%d4, H4⟩⟩
    iapply (sound_kernel0_first c Set.univ _ ((hcond0 t00).mpr rfl) _ _ _ _ _ _ _ _ _ _ _ _
      (iblk0 V c 0 t00) (iblk0 V c 1 t00) (iblk0 V c 2 t00) (iblk0 V c 3 t00) _)
    isplitl [H0]; · iexact H0
    isplitl [H1]; · iexact H1
    isplitl [H2]; · iexact H2
    isplitl [H3]; · iexact H3
    isplitl [H4]; · iexists _; iexact H4
    isplitl [HS]
    · iexists fs; rw [owns_whole]; iexact HS
    iintro ⟨H0, H1, H2, H3, H4, HS⟩
    isplitl [HS Hr5 Hg]
    · isplitl [HS]; · iexact HS
      isplitl [Hr5]; · iexact Hr5
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨HS, Hr5, Hg⟩, Ho, ⟨%d0, H0⟩, ⟨%d1, H1⟩, ⟨%d2, H2⟩, ⟨%d3, H3⟩, ⟨%d4, H4⟩⟩
    iapply (sound_kernel0_later c Set.univ _ (fun h => hz ((hcond0 t).mp h)) _ _ _ _ _ _ _ _ _ _ _ _
      (iblk0 V c 0 t) (iblk0 V c 1 t) (iblk0 V c 2 t) (iblk0 V c 3 t) (scV V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr5 Hg]
    · isplitl [HS]; · iexact HS
      isplitl [Hr5]; · iexact Hr5
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = Phi0 V c 0 from rfl, Phi0_zero]

/-- After the last point the invariant gives the scoped buffers back, the scratch's named contents forgotten. -/
theorem Phi0_out (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by decide), owns_whole]
  unfold Pipeline.ΦA
  rw [scopedRest0_split]
  iintro ⟨HS, Hr5, Hg⟩
  isplitl [HS Hr5]
  · isplitl [HS]
    · iexists _; iexact HS
    iexact Hr5
  iexact Hg

end Cert.KernelIdeal.Hand

end
-- ==== Proof.KIRegion1.lean ====
/-
  The second pallas_call (the log-softmax pass) as a pipeline region, at any contents `V` of the core's buffers on
  entry: window 0 is the whole 10000 × 64 array the first pass produced, window 1 the 200 rows of `adj` of the point,
  window 2 the 200 × 64 block of the result. The body loads both inputs whole and stores its one payload over the
  whole output block; it keeps nothing between points.
-/
import proofs.«161516_g87050397155999_cont_sun_m_51_2_alg».proof.Proof.Gen.KernelIdeal.Launch
import proofs.«161516_g87050397155999_cont_sun_m_51_2_alg».proof.Proof.Gen.KernelIdeal.Skeleton
import proofs.«161516_g87050397155999_cont_sun_m_51_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-buffer rectangles the body reads and writes through. -/
abbrev rH : Rect S10000x64 := Rect.unit (s := S10000x64) ![0, 0] S10000x64.size inb_S10000x64_S10000x64_0_0
abbrev rA1 : Rect S200x10000 := Rect.unit (s := S200x10000) ![0, 0] S200x10000.size inb_S200x10000_S200x10000_0_0
abbrev rO1 : Rect S200x64 := Rect.unit (s := S200x64) ![0, 0] S200x64.size inb_S200x64_S200x64_0_0

/-- What the body leaves in the output block's buffer: its one store, of the payload of the two loaded inputs. -/
def out1_2 (h : Vec F S10000x64 .bf16) (a : Vec F S200x10000 .f32) : Vec F S200x64 .f32 :=
  View.canon [⟨rO1, k1_pay1 (View.ld a rA1) (View.ld h rH)⟩]

/-- That store covers the buffer. -/
theorem cover1_2 (p0 : Vec F S200x64 .f32) (y : S200x64.Idx) :
    ∃ pc ∈ ([⟨rO1, p0⟩] : List (View.Piece (Elt F) S200x64 .f32)), y ∈ pc.1.set :=
  View.cover_of_tiled [⟨rO1, p0⟩] S200x64.size (by rfl) y

set_option maxHeartbeats 1000000 in
/-- The body on whole staging memrefs, the inputs' at read contents and the output's at anything, runs to the
    continuation holding the inputs' as they were and the output's at `out1_2` of them. -/
theorem sound_kernel1 (c : Dev nD) (E : Set ℕ) (i : grid1.Coords) (arg1 : Memref sig .tc .vmem S10000x64 .bf16) (harg1 : arg1.IsWhole)
    (arg2 : Memref sig .tc .vmem S200x10000 .f32) (harg2 : arg2.IsWhole) (arg3 : Memref sig .tc .vmem S200x64 .f32) (harg3 : arg3.IsWhole)
    (h : Vec F S10000x64 .bf16) (a : Vec F S200x10000 .f32) (K : PUnit → sProp 𝕄) :
    iprop(owns (c : Thread nD τ) arg1 fullShare h ∗ owns (c : Thread nD τ) arg2 fullShare a ∗ (∃ d, owns (c : Thread nD τ) arg3 fullShare d)
        ∗ (iprop(owns (c : Thread nD τ) arg1 fullShare h ∗ owns (c : Thread nD τ) arg2 fullShare a ∗ owns (c : Thread nD τ) arg3 fullShare (out1_2 h a)) -∗ K ⟨⟩))
      ⊢ wp frame (wpE (defs₀ (F := F)) Variants.none c none) E (cc1__pass_b_kernel i arg1 harg1 arg2 harg2 arg3 harg3) K := by
  simp only [cc1__pass_b_kernel_eq_skeleton]; unfold cc1__pass_b_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-- The proof data of this pipeline on core `c`: the arrays as the region finds them; after the body each input's
    buffer at its block and the output's at `out1_2` of the input blocks; the invariant the scoped buffers no window
    stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program as the list of its two pipeline regions, from the launch memory to the return: the buffer
  contents at each boundary (the launch memory; after the first region, its arrays at what its write-backs leave;
  after the second likewise), each region's record around the thread state "every unscoped buffer at the boundary's
  contents, the generator register at some state, nothing owed", and the run: every weakly fair execution terminates,
  nothing faulting, with every unscoped buffer at the last boundary's contents. The argument arrays are read back
  through the boundaries to the launch memory; the result array is what the second region's write-backs leave.
-/
import proofs.«161516_g87050397155999_cont_sun_m_51_2_alg».proof.Proof.KIRegion0
import proofs.«161516_g87050397155999_cont_sun_m_51_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: a region reads an argument through an input window or bypasses it -/

theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 1).trans (((dat0 (V0 m ρ) c).arrAt_in 1 rfl _).trans (A_eq0 (V0 m ρ) c 1))
theorem W1_main_arg1 (c : Dev nD) : W1 m ρ c (Proc.devRef .tc main_arg1) = m ((c : Thread nD τ).loc main_arg1) :=
  (W1_arr m ρ c 2).trans (((dat0 (V0 m ρ) c).arrAt_in 2 rfl _).trans (A_eq0 (V0 m ρ) c 2))
theorem W1_main_arg3 (c : Dev nD) : W1 m ρ c (Proc.devRef .tc main_arg3) = m ((c : Thread nD τ).loc main_arg3) :=
  (W1_arr m ρ c 3).trans (((dat0 (V0 m ρ) c).arrAt_in 3 rfl _).trans (A_eq0 (V0 m ρ) c 3))
/-- The intermediate array is what the first region's write-backs leave. -/
theorem W1_main_v0 (c : Dev nD) : W1 m ρ c (Proc.devRef .tc main_v0) = (dat0 (V0 m ρ) c).arrAt 4 cfg0.N :=
  W1_arr m ρ c 4

theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg1 (c : Dev nD) : W2 m ρ c (Proc.devRef .tc main_arg1) = m ((c : Thread nD τ).loc main_arg1) :=
  (W2_arr m ρ c 1).trans ((((dat1 (V1 m ρ) c).arrAt_in 1 rfl _).trans (A_eq1 (V1 m ρ) c 1)).trans (W1_main_arg1 m ρ c))
/-- The result array is what the second region's write-backs leave. -/
theorem W2_main_v1 (c : Dev nD) : W2 m ρ c (Proc.devRef .tc main_v1) = (dat1 (V1 m ρ) c).arrAt 2 cfg1.N :=
  W2_arr m ρ c 2

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its `owes`, at
    nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region over the thread state: entered from every unscoped buffer at the launch contents, left at `W1`.
    Its arrays are split out of the unscoped buffers and put back at the exit contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V0 m ρ) c)
    unfold Pipeline.ΦA
    iintro ⟨Hp, -, Hr⟩
    isplitl [Hr]; · iexact Hr
    iexact Hp
  hout c := by
    rw [Pipeline.ownSems0_none]
    refine (Phi0_out (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from `W1`, left at `W2` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m ρ) () defs₀ 𝒱₀ L lv) :=
  [ .region (reg0 m ρ), .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The same with the five buffers the claims speak of read out: the result array at what the second region's
    write-backs leave, each argument array as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The frame claim at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.KernelIdeal.Hand

end
-- ==== Proof.Spec.lean ====
/-
  The two-layer graph convolution with a row-wise log-softmax, as ONE function of the four argument arrays, index by
  index over the extended reals:

      h0  = x · W1ᵀ                                   (10000 × 128)
      h2  = max (adj · h0, 0) · W2ᵀ                   (10000 × 64)
      z   = adj · h2                                  (10000 × 64)
      out = (z − rowmax z) − log Σ exp (z − rowmax z)

  Every product is a finite sum over the contracted coordinate; the row maximum is the fold of `max` from the
  float pattern of −∞ over the row's 64 entries. Row `r` of the result depends on `adj` only through its row `r`
  (and through `h2`, which is the same array for every row): that is why a kernel may compute it 200 rows at a time.
-/
import Idealize.ShloMosaic.PureOps.Ideal
import Idealize.ShloMosaic.Lib.ValueIdx

noncomputable section

namespace Cert.Gcn

open Idealize.ShloMosaic Idealize.ShloMosaic.ValueIdx

/-- A rank-2 array of extended reals. -/
abbrev Arr (a b : Nat) : Type := (⟨2, ![a, b]⟩ : Shape).Idx → EReal

/-- The f32 pattern of `0.0`, and of `-∞`, as the extended reals they denote (never evaluated here). -/
abbrev zero32 : EReal := Ideal.ofBits .f32 0x00000000#32
abbrev ninf32 : EReal := Ideal.ofBits .f32 0xFF800000#32

/-- The first projection `x · W1ᵀ`: entry (n, j) is the sum over the 128 input features. -/
def h0 (x : Arr 10000 128) (w1 : Arr 128 128) : Arr 10000 128 :=
  fun i => ∑ l : Fin 128, x (ix2 (i 0) l) * w1 (ix2 (i 1) l)

/-- One row of the first layer's output after the second projection: from a row `a` of the adjacency matrix and the
    projected features `s`, aggregate, clamp at zero, project by `W2ᵀ`. -/
def layer1 (a : Fin 10000 → EReal) (s : Arr 10000 128) (w2 : Arr 64 128) (o : Fin 64) : EReal :=
  ∑ j : Fin 128, max (∑ k : Fin 10000, a k * s (ix2 k j)) zero32 * w2 (ix2 o j)

/-- `max (adj · h0, 0) · W2ᵀ`. -/
def h2 (adj : Arr 10000 10000) (x : Arr 10000 128) (w1 : Arr 128 128) (w2 : Arr 64 128) : Arr 10000 64 :=
  fun i => layer1 (fun k => adj (ix2 (i 0) k)) (h0 x w1) w2 (i 1)

/-- The maximum of a row of 64 logits, folded from −∞. -/
def rowmax (z : Fin 64 → EReal) : EReal := (Finset.univ : Finset (Fin 64)).fold max ninf32 z

/-- The log-softmax of a row of 64 logits at its entry `q`. -/
def lsm (z : Fin 64 → EReal) (q : Fin 64) : EReal :=
  (z q - rowmax z) - Ideal.log (∑ q' : Fin 64, Ideal.exp (z q' - rowmax z))

/-- One row of the result: from a row `a` of the adjacency matrix and the array `h` it aggregates. -/
def outRow (a : Fin 10000 → EReal) (h : Arr 10000 64) (q : Fin 64) : EReal :=
  lsm (fun q' => ∑ k : Fin 10000, a k * h (ix2 k q')) q

/-- The whole result. -/
def out (adj : Arr 10000 10000) (x : Arr 10000 128) (w1 : Arr 128 128) (w2 : Arr 64 128) : Arr 10000 64 :=
  fun i => outRow (fun k => adj (ix2 (i 0) k)) (h2 adj x w1 w2) (i 1)

end Cert.Gcn

end
-- ==== Proof.Payloads.lean ====
/-
  The kernel's three payloads read at an index, at the ideal instance: each is a row function of the specification.
  The first is the projection `x · W1ᵀ`; the second, from 200 rows of `adj`, the projected features and `W2`, one row of
  `max (adj · h0, 0) · W2ᵀ`; the third, from 200 rows of `adj` and the intermediate array, one row of the log-softmax.
  A change of float format is the identity on extended reals, a matrix product into the zero accumulator is the sum
  over the contracted coordinate, a lane reduction is the sum (the fold of `max`) over the lane coordinate.
-/
import proofs.«161516_g87050397155999_cont_sun_m_51_2_alg».proof.Proof.Gen.KernelIdeal.Skeleton
import proofs.«161516_g87050397155999_cont_sun_m_51_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The four matrix products at an index

Each product contracts ONE axis of each operand. At an output index `i` and a contraction position `k` the left
operand is read at `i`'s row coordinate and `k`, the right operand at `k` and `i`'s column coordinate (or, where the
right operand is contracted along its second axis, at `i`'s column coordinate and `k`): one lemma per operand axis,
then the sum over the contraction's index set re-indexed by its one coordinate. -/

local notation "D₁" => dot_S10000x128_S128x128_S10000x128_1_1_0_0_n_n
local notation "D₂" => dot_S200x10000_S10000x128_S200x128_1_0_0_1_n_n
local notation "D₃" => dot_S200x128_S64x128_S200x64_1_1_0_0_n_n
local notation "D₄" => dot_S200x10000_S10000x64_S200x64_1_0_0_1_n_n

/-! ### `x · W1ᵀ`: both operands contracted along their second axis -/

private theorem lhs1_0 (i : S10000x128.Idx) (q : (D₁).contr.Idx) : ((D₁).lhsIdx i q 0).val = (i 0).val := by
  unfold DotDims.lhsIdx
  rw [dif_neg (show ¬(0 : Fin S10000x128.rank) ∈ (D₁).lhsBatch by decide),
    dif_pos (show (0 : Fin S10000x128.rank) ∈ (D₁).lhsNonContracting by decide)]
  rfl
private theorem lhs1_1 (i : S10000x128.Idx) (q : (D₁).contr.Idx) : ((D₁).lhsIdx i q 1).val = (q ⟨0, by decide⟩).val :=
  (D₁).lhsIdx_val_of_single rfl i q
private theorem rhs1_0 (i : S10000x128.Idx) (q : (D₁).contr.Idx) : ((D₁).rhsIdx i q 0).val = (i 1).val := by
  unfold DotDims.rhsIdx
  rw [dif_neg (show ¬(0 : Fin S128x128.rank) ∈ (D₁).rhsBatch by decide),
    dif_pos (show (0 : Fin S128x128.rank) ∈ (D₁).rhsNonContracting by decide)]
  rfl
private theorem rhs1_1 (i : S10000x128.Idx) (q : (D₁).contr.Idx) : ((D₁).rhsIdx i q 1).val = (q ⟨0, by decide⟩).val :=
  (D₁).rhsIdx_val_of_single rfl i q

/-- Entry `i` of the product into the zero accumulator: the sum over the 128 shared coordinates. -/
private theorem mm1_apply {φ₁ φ₂ : FTy} (prec : Option ContractPrecision) (l : FVec Ideal S10000x128 φ₁)
    (r : FVec Ideal S128x128 φ₂) (i : S10000x128.Idx) :
    matmul D₁ prec l r (constant (F := Ideal) S10000x128 .f32 0x00000000#32) i
      = ∑ k : Fin 128, l (ix2 (i 0) k) * r (ix2 (i 1) k) := by
  refine (Ideal.matmul_constant_zero_apply D₁ prec l r i).trans ?_
  rw [← Equiv.sum_comp (contrEquiv1 D₁ 128 rfl rfl).symm]
  refine Finset.sum_congr rfl fun k _ => ?_
  have hk := contrEquiv1_symm_val D₁ 128 rfl rfl k
  have el : (D₁).lhsIdx i ((contrEquiv1 D₁ 128 rfl rfl).symm k) = ix2 (i 0) k := funext fun a => Fin.ext (by
    match a with
    | ⟨0, _⟩ => exact lhs1_0 _ _
    | ⟨1, _⟩ => exact (lhs1_1 _ _).trans hk)
  have er : (D₁).rhsIdx i ((contrEquiv1 D₁ 128 rfl rfl).symm k) = ix2 (i 1) k := funext fun a => Fin.ext (by
    match a with
    | ⟨0, _⟩ => exact rhs1_0 _ _
    | ⟨1, _⟩ => exact (rhs1_1 _ _).trans hk)
  rw [el, er]
  rfl

/-- The first payload at (n, j): the sum over the 128 input features of `x[n, l] · W1[j, l]`. -/
theorem pay1_apply (x : FVec Ideal S10000x128 .f32) (w1 : FVec Ideal S128x128 .f32) (i : S10000x128.Idx) :
    k0_pay1 (F := Ideal) x w1 i = Cert.Gcn.h0 x w1 i := by
  unfold k0_pay1
  show shapeCast S10000x128 (truncf .bf16 (matmul D₁ (some .fp32) x w1
    (constant (F := Ideal) S10000x128 .f32 0x00000000#32)) bitsLt_bf16_f32) shapeCasts_S10000x128_S10000x128 i = _
  rw [shapeCast_self, truncf_apply, mm1_apply]
  rfl

/-! ### `adj · s`: the left operand contracted along its second axis, the right along its first -/

private theorem lhs2_0 (i : S200x128.Idx) (q : (D₂).contr.Idx) : ((D₂).lhsIdx i q 0).val = (i 0).val := by
  unfold DotDims.lhsIdx
  rw [dif_neg (show ¬(0 : Fin S200x10000.rank) ∈ (D₂).lhsBatch by decide),
    dif_pos (show (0 : Fin S200x10000.rank) ∈ (D₂).lhsNonContracting by decide)]
  rfl
private theorem lhs2_1 (i : S200x128.Idx) (q : (D₂).contr.Idx) : ((D₂).lhsIdx i q 1).val = (q ⟨0, by decide⟩).val :=
  (D₂).lhsIdx_val_of_single rfl i q
private theorem rhs2_0 (i : S200x128.Idx) (q : (D₂).contr.Idx) : ((D₂).rhsIdx i q 0).val = (q ⟨0, by decide⟩).val :=
  (D₂).rhsIdx_val_of_single rfl i q
private theorem rhs2_1 (i : S200x128.Idx) (q : (D₂).contr.Idx) : ((D₂).rhsIdx i q 1).val = (i 1).val := by
  unfold DotDims.rhsIdx
  rw [dif_neg (show ¬(1 : Fin S10000x128.rank) ∈ (D₂).rhsBatch by decide),
    dif_pos (show (1 : Fin S10000x128.rank) ∈ (D₂).rhsNonContracting by decide)]
  rfl

/-- Entry (p, j) of the product into the zero accumulator: the sum over the 10000 shared coordinates. -/
private theorem mm2_apply {φ₁ φ₂ : FTy} (prec : Option ContractPrecision) (l : FVec Ideal S200x10000 φ₁)
    (r : FVec Ideal S10000x128 φ₂) (p : Fin 200) (j : Fin 128) :
    matmul D₂ prec l r (constant (F := Ideal) S200x128 .f32 0x00000000#32) (ix2 p j)
      = ∑ k : Fin 10000, l (ix2 p k) * r (ix2 k j) := by
  refine (Ideal.matmul_constant_zero_apply D₂ prec l r (ix2 p j)).trans ?_
  rw [← Equiv.sum_comp (contrEquiv1 D₂ 10000 rfl rfl).symm]
  refine Finset.sum_congr rfl fun k _ => ?_
  have hk := contrEquiv1_symm_val D₂ 10000 rfl rfl k
  have el : (D₂).lhsIdx (ix2 p j) ((contrEquiv1 D₂ 10000 rfl rfl).symm k) = ix2 p k := funext fun a => Fin.ext (by
    match a with
    | ⟨0, _⟩ => exact lhs2_0 _ _
    | ⟨1, _⟩ => exact (lhs2_1 _ _).trans hk)
  have er : (D₂).rhsIdx (ix2 p j) ((contrEquiv1 D₂ 10000 rfl rfl).symm k) = ix2 k j := funext fun a => Fin.ext (by
    match a with
    | ⟨0, _⟩ => exact (rhs2_0 _ _).trans hk
    | ⟨1, _⟩ => exact rhs2_1 _ _)
  rw [el, er]

/-! ### `relu · W2ᵀ`: both operands contracted along their second axis -/

private theorem lhs3_0 (i : S200x64.Idx) (q : (D₃).contr.Idx) : ((D₃).lhsIdx i q 0).val = (i 0).val := by
  unfold DotDims.lhsIdx
  rw [dif_neg (show ¬(0 : Fin S200x128.rank) ∈ (D₃).lhsBatch by decide),
    dif_pos (show (0 : Fin S200x128.rank) ∈ (D₃).lhsNonContracting by decide)]
  rfl
private theorem lhs3_1 (i : S200x64.Idx) (q : (D₃).contr.Idx) : ((D₃).lhsIdx i q 1).val = (q ⟨0, by decide⟩).val :=
  (D₃).lhsIdx_val_of_single rfl i q
private theorem rhs3_0 (i : S200x64.Idx) (q : (D₃).contr.Idx) : ((D₃).rhsIdx i q 0).val = (i 1).val := by
  unfold DotDims.rhsIdx
  rw [dif_neg (show ¬(0 : Fin S64x128.rank) ∈ (D₃).rhsBatch by decide),
    dif_pos (show (0 : Fin S64x128.rank) ∈ (D₃).rhsNonContracting by decide)]
  rfl
private theorem rhs3_1 (i : S200x64.Idx) (q : (D₃).contr.Idx) : ((D₃).rhsIdx i q 1).val = (q ⟨0, by decide⟩).val :=
  (D₃).rhsIdx_val_of_single rfl i q

/-- Entry (p, o) of the product into the zero accumulator: the sum over the 128 shared coordinates. -/
private theorem mm3_apply {φ₁ φ₂ : FTy} (prec : Option ContractPrecision) (l : FVec Ideal S200x128 φ₁)
    (r : FVec Ideal S64x128 φ₂) (p : Fin 200) (o : Fin 64) :
    matmul D₃ prec l r (constant (F := Ideal) S200x64 .f32 0x00000000#32) (ix2 p o)
      = ∑ j : Fin 128, l (ix2 p j) * r (ix2 o j) := by
  refine (Ideal.matmul_constant_zero_apply D₃ prec l r (ix2 p o)).trans ?_
  rw [← Equiv.sum_comp (contrEquiv1 D₃ 128 rfl rfl).symm]
  refine Finset.sum_congr rfl fun k _ => ?_
  have hk := contrEquiv1_symm_val D₃ 128 rfl rfl k
  have el : (D₃).lhsIdx (ix2 p o) ((contrEquiv1 D₃ 128 rfl rfl).symm k) = ix2 p k := funext fun a => Fin.ext (by
    match a with
    | ⟨0, _⟩ => exact lhs3_0 _ _
    | ⟨1, _⟩ => exact (lhs3_1 _ _).trans hk)
  have er : (D₃).rhsIdx (ix2 p o) ((contrEquiv1 D₃ 128 rfl rfl).symm k) = ix2 o k := funext fun a => Fin.ext (by
    match a with
    | ⟨0, _⟩ => exact rhs3_0 _ _
    | ⟨1, _⟩ => exact (rhs3_1 _ _).trans hk)
  rw [el, er]

/-- The second payload at (p, o): row `p` of the adjacency block aggregated over the projected features, clamped at zero,
    projected by row `o` of `W2`. -/
theorem pay2_apply (a : FVec Ideal S200x10000 .f32) (s : FVec Ideal S10000x128 .bf16) (w2 : FVec Ideal S64x128 .f32)
    (p : Fin 200) (o : Fin 64) :
    k0_pay2 (F := Ideal) a s w2 (ix2 p o) = Cert.Gcn.layer1 (fun k => a (ix2 p k)) s w2 o := by
  unfold k0_pay2 Cert.Gcn.layer1
  show truncf .bf16 (matmul D₃ (some .fp32)
      (maximumf (matmul D₂ none (truncf .bf16 a bitsLt_bf16_f32) s (constant (F := Ideal) S200x128 .f32 0x00000000#32))
        (broadcast S200x128 (Scalar.ofBits (F := Ideal) .f32 0x00000000#32)))
      w2 (constant (F := Ideal) S200x64 .f32 0x00000000#32)) bitsLt_bf16_f32 (ix2 p o) = _
  rw [truncf_apply, mm3_apply]
  refine Finset.sum_congr rfl fun j _ => ?_
  rw [maximumf_apply, mm2_apply, broadcast_apply]
  rfl

/-! ### `adj · h`: the left operand contracted along its second axis, the right along its first -/

private theorem lhs4_0 (i : S200x64.Idx) (q : (D₄).contr.Idx) : ((D₄).lhsIdx i q 0).val = (i 0).val := by
  unfold DotDims.lhsIdx
  rw [dif_neg (show ¬(0 : Fin S200x10000.rank) ∈ (D₄).lhsBatch by decide),
    dif_pos (show (0 : Fin S200x10000.rank) ∈ (D₄).lhsNonContracting by decide)]
  rfl
private theorem lhs4_1 (i : S200x64.Idx) (q : (D₄).contr.Idx) : ((D₄).lhsIdx i q 1).val = (q ⟨0, by decide⟩).val :=
  (D₄).lhsIdx_val_of_single rfl i q
private theorem rhs4_0 (i : S200x64.Idx) (q : (D₄).contr.Idx) : ((D₄).rhsIdx i q 0).val = (q ⟨0, by decide⟩).val :=
  (D₄).rhsIdx_val_of_single rfl i q
private theorem rhs4_1 (i : S200x64.Idx) (q : (D₄).contr.Idx) : ((D₄).rhsIdx i q 1).val = (i 1).val := by
  unfold DotDims.rhsIdx
  rw [dif_neg (show ¬(1 : Fin S10000x64.rank) ∈ (D₄).rhsBatch by decide),
    dif_pos (show (1 : Fin S10000x64.rank) ∈ (D₄).rhsNonContracting by decide)]
  rfl

/-- Entry (p, q) of the product into the zero accumulator: the sum over the 10000 shared coordinates. -/
private theorem mm4_apply {φ₁ φ₂ : FTy} (prec : Option ContractPrecision) (l : FVec Ideal S200x10000 φ₁)
    (r : FVec Ideal S10000x64 φ₂) (p : Fin 200) (q : Fin 64) :
    matmul D₄ prec l r (constant (F := Ideal) S200x64 .f32 0x00000000#32) (ix2 p q)
      = ∑ k : Fin 10000, l (ix2 p k) * r (ix2 k q) := by
  refine (Ideal.matmul_constant_zero_apply D₄ prec l r (ix2 p q)).trans ?_
  rw [← Equiv.sum_comp (contrEquiv1 D₄ 10000 rfl rfl).symm]
  refine Finset.sum_congr rfl fun k _ => ?_
  have hk := contrEquiv1_symm_val D₄ 10000 rfl rfl k
  have el : (D₄).lhsIdx (ix2 p q) ((contrEquiv1 D₄ 10000 rfl rfl).symm k) = ix2 p k := funext fun a => Fin.ext (by
    match a with
    | ⟨0, _⟩ => exact lhs4_0 _ _
    | ⟨1, _⟩ => exact (lhs4_1 _ _).trans hk)
  have er : (D₄).rhsIdx (ix2 p q) ((contrEquiv1 D₄ 10000 rfl rfl).symm k) = ix2 k q := funext fun a => Fin.ext (by
    match a with
    | ⟨0, _⟩ => exact (rhs4_0 _ _).trans hk
    | ⟨1, _⟩ => exact rhs4_1 _ _)
  rw [el, er]

/-! ## The lane reductions and the column layout operations at an index

A reduction of a 200 × 64 block along its lanes reads, at row `p`, the block's entries (p, 0) … (p, 63); the result, a
vector of 200 entries, is viewed as a 200 × 1 column and the column is repeated along the 64 lanes, so that entry
(p, q) of the repeated block is the reduction of row `p`. -/

/-- Row `p` with the lane coordinate `q` inserted is the index (p, q). -/
private theorem lift_row (p : Fin 200) (q : Fin 64) : reduces_S200x64_S200.lift (ix1 p) q = ix2 p q := by
  funext c
  apply Fin.ext
  match c with
  | ⟨0, _⟩ => rfl
  | ⟨1, _⟩ => rfl

/-- A row's maximum: the fold of `max`, from the accumulator's value, over the row's 64 entries. -/
private theorem rowmax_apply (v : FVec Ideal S200x64 .f32) (p : Fin 200) :
    multiReduction (F := Ideal) .maximumf [1] S200 v 0xFF800000#32 reduces_S200x64_S200 (.inl rfl) rfl (ix1 p)
      = (Finset.univ : Finset (Fin 64)).fold max (Ideal.ofBits .f32 0xFF800000#32) (fun q => v (ix2 p q)) := by
  refine (Ideal.multiReduction_maximumf_single v _ reduces_S200x64_S200 (.inl rfl) rfl (ix1 p)).trans ?_
  exact Finset.fold_congr fun q _ => congrArg v (lift_row p q)

/-- A row's sum: the sum of the row's 64 entries. -/
private theorem rowsum_apply (v : FVec Ideal S200x64 .f32) (p : Fin 200) :
    multiReduction (F := Ideal) .add [1] S200 v 0x00000000#32 reduces_S200x64_S200 (.inl rfl) rfl (ix1 p)
      = ∑ q : Fin 64, v (ix2 p q) := by
  refine (Ideal.multiReduction_add_single v _ reduces_S200x64_S200 (.inl rfl) rfl (ix1 p)).trans ?_
  exact Finset.sum_congr rfl fun q _ => congrArg v (lift_row p q)

/-- A vector of 200 entries viewed as a 200 × 1 column reads, at row `p`, the vector's entry `p`: both have row-major
    position `p`. -/
private theorem col_apply {α : Type} (v : S200.Idx → α) (p : Fin 200) (c : Fin 1) :
    shapeCast S200x1 v shapeCasts_S200_S200x1 (ix2 p c) = v (ix1 p) :=
  shapeCast_apply v shapeCasts_S200_S200x1 (ix2 p c) (ix1 p) (by
    have hc : c.val = 0 := by omega
    rw [Shape.rowMajor_val_one, Shape.rowMajor_val_two]
    show p.val = p.val * 1 + c.val
    rw [hc, Nat.mul_one, Nat.add_zero])

/-- A 200 × 1 column repeated along 64 lanes reads, at (p, q), the column's entry `p`. -/
private theorem bcast_apply {α : Type} (w : S200x1.Idx → α) (p : Fin 200) (q : Fin 64) :
    broadcastTo S200x64 w broadcasts_S200x1_S200x64 (ix2 p q) = w (ix2 p (0 : Fin 1)) := by
  refine broadcastTo_apply w broadcasts_S200x1_S200x64 (ix2 p q) (ix2 p (0 : Fin 1)) fun ax => ?_
  match ax with
  | ⟨0, _⟩ => rfl
  | ⟨1, _⟩ => rfl

/-- The exponential of a block, entry by entry. -/
private theorem exp_apply {s : Shape} (v : FVec Ideal s .f32) (i : s.Idx) : exp v i = Ideal.exp (v i) := rfl
/-- The logarithm of a block, entry by entry. -/
private theorem log_apply {s : Shape} (v : FVec Ideal s .f32) (i : s.Idx) : log v i = Ideal.log (v i) := rfl

/-- The third payload at (p, q): the log-softmax, at entry `q`, of row `p` of the adjacency block aggregated over the
    intermediate array. -/
theorem pay3_apply (a : FVec Ideal S200x10000 .f32) (h : FVec Ideal S10000x64 .bf16) (p : Fin 200) (q : Fin 64) :
    k1_pay1 (F := Ideal) a h (ix2 p q) = Cert.Gcn.outRow (fun k => a (ix2 p k)) h q := by
  unfold k1_pay1 Cert.Gcn.outRow Cert.Gcn.lsm Cert.Gcn.rowmax
  -- the outer subtraction and the logarithm of the row's sum, down to the two lane reductions at row `p`
  simp only [subf_apply, bcast_apply, col_apply, log_apply, exp_apply, shapeCast_self, mm4_apply, truncf_apply]
  rw [rowmax_apply, rowsum_apply]
  -- under the sum: the exponential of each entry less the row's maximum
  simp only [subf_apply, bcast_apply, col_apply, exp_apply, mm4_apply, truncf_apply]
  rw [rowmax_apply]
  simp only [mm4_apply, truncf_apply]
  first | done | rfl

end Cert.KernelIdeal.Pay

end
-- ==== Proof.KernelValue.lean ====
/-
  What the idealized kernel's two result arrays hold after the run, as whole arrays.

  In the first pass point `t` writes back rows 200·t … 200·t+199 of the intermediate array; what it writes is the second
  payload of rows 200·t … of `adj`, of the scratch (which holds `x · W1ᵀ` from the first point on) and of `W2`: row by row
  that is the specification's `h2`. The 50 blocks tile the 10000 rows, so the array ends holding `h2` whole. The second
  pass reads that array whole at every point and writes back, for the same rows of `adj`, the log-softmax rows: the
  result array ends holding the specification's `out`.
-/
import proofs.«161516_g87050397155999_cont_sun_m_51_2_alg».proof.Proof.KIRun
import proofs.«161516_g87050397155999_cont_sun_m_51_2_alg».proof.Proof.Payloads
import proofs.«161516_g87050397155999_cont_sun_m_51_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The four argument arrays on core `c`, as launched. -/
abbrev aX (c : Dev nD) : Cert.Gcn.Arr 10000 128 := m ((c : Thread nD τ).loc main_arg0)
abbrev aAdj (c : Dev nD) : Cert.Gcn.Arr 10000 10000 := m ((c : Thread nD τ).loc main_arg1)
abbrev aW1 (c : Dev nD) : Cert.Gcn.Arr 128 128 := m ((c : Thread nD τ).loc main_arg2)
abbrev aW2 (c : Dev nD) : Cert.Gcn.Arr 64 128 := m ((c : Thread nD τ).loc main_arg3)

/-! ## The first pass -/

/-- The printed index maps over the grid: the whole-array windows sit at block (0, 0), the row windows at (t, 0). -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A whole-array window's block is the array. -/
theorem blk0_0 (c : Dev nD) (t : Fin cfg0.N) (j : S10000x128.Idx) : iblk0 (V0 m ρ) c 0 t j = aX m c j := by
  obtain ⟨e0, e1, -⟩ := idx0 t
  show V0 m ρ c main_arg0 (((cfg0.win 0).blk t).view.emb j) = m ((c : Thread nD τ).loc main_arg0) j
  refine congrArg (m ((c : Thread nD τ).loc main_arg0)) (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega
theorem blk0_1 (c : Dev nD) (t : Fin cfg0.N) (j : S128x128.Idx) : iblk0 (V0 m ρ) c 1 t j = aW1 m c j := by
  obtain ⟨-, -, e0, e1, -⟩ := idx0 t
  show V0 m ρ c main_arg2 (((cfg0.win 1).blk t).view.emb j) = m ((c : Thread nD τ).loc main_arg2) j
  refine congrArg (m ((c : Thread nD τ).loc main_arg2)) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega
theorem blk0_3 (c : Dev nD) (t : Fin cfg0.N) (j : S64x128.Idx) : iblk0 (V0 m ρ) c 3 t j = aW2 m c j := by
  obtain ⟨-, -, -, -, -, -, e0, e1, -⟩ := idx0 t
  show V0 m ρ c main_arg3 (((cfg0.win 3).blk t).view.emb j) = m ((c : Thread nD τ).loc main_arg3) j
  refine congrArg (m ((c : Thread nD τ).loc main_arg3)) (funext fun a => Fin.ext ?_)
  match a with
  | ⟨0, _⟩ => show win0_3.index t (0 : Fin 2) * 64 + 1 * (j 0).val = (j 0).val; omega
  | ⟨1, _⟩ => show win0_3.index t (1 : Fin 2) * 128 + 1 * (j 1).val = (j 1).val; omega

/-- Row `p` of point `t`'s block of `adj` is row 200·t + p of `adj`. -/
theorem blk0_2 (c : Dev nD) (t : Fin cfg0.N) (p : Fin 200) (k : Fin 10000) (r : Fin 10000) (hr : r.val = t.val * 200 + p.val) :
    iblk0 (V0 m ρ) c 2 t (ix2 p k) = aAdj m c (ix2 r k) := by
  obtain ⟨-, -, -, -, e0, e1, -⟩ := idx0 t
  show V0 m ρ c main_arg1 (((cfg0.win 2).blk t).view.emb (ix2 p k)) = m ((c : Thread nD τ).loc main_arg1) (ix2 r k)
  refine congrArg (m ((c : Thread nD τ).loc main_arg1)) (funext fun a => Fin.ext ?_)
  match a with
  | ⟨0, _⟩ => show win0_2.index t (0 : Fin 2) * 200 + 1 * p.val = r.val; omega
  | ⟨1, _⟩ => show win0_2.index t (1 : Fin 2) * 10000 + 1 * k.val = k.val; omega

/-- From the first point on the scratch holds `x · W1ᵀ`. -/
theorem scV_eq (c : Dev nD) : scV (V0 m ρ) c = Cert.Gcn.h0 (aX m c) (aW1 m c) := by
  unfold scV sc0
  rw [View.canon_unit_zero hz]
  simp only [View.ld_unit_zero (S := S10000x128) hz, View.ld_unit_zero (S := S128x128) hz]
  funext i
  rw [show (iblk0 (V0 m ρ) c 0 t00 : S10000x128.Idx → EReal) = aX m c from funext (blk0_0 m ρ c t00),
    show (iblk0 (V0 m ρ) c 1 t00 : S128x128.Idx → EReal) = aW1 m c from funext (blk0_1 m ρ c t00)]
  exact Cert.KernelIdeal.Pay.pay1_apply (aX m c) (aW1 m c) i

/-- The intermediate array the first pass leaves. -/
abbrev H2 (c : Dev nD) : Cert.Gcn.Arr 10000 64 := Cert.Gcn.h2 (aAdj m c) (aX m c) (aW1 m c) (aW2 m c)

/-- WHAT POINT `t` WRITES BACK is block `t` of `h2`. -/
theorem flushed0_eq (c : Dev nD) (t : Fin cfg0.N) :
    (dat0 (V0 m ρ) c).flushed 4 t = ((cfg0.win 4).blk t).view.read (Elt Ideal) (H2 m c) := by
  have hN : t.val < 50 := lt_of_lt_of_eq t.isLt N_0
  obtain ⟨-, -, -, -, -, -, -, -, e0, e1⟩ := idx0 t
  show (cfg0.win 4).cut (grid0.coords t) ((dat0 (V0 m ρ) c).after 4 t) = _
  rw [after0_4]
  unfold out0_4
  rw [View.canon_unit_zero hz]
  simp only [View.ld_unit_zero (S := S200x10000) hz, View.ld_unit_zero (S := S10000x128) hz, View.ld_unit_zero (S := S64x128) hz]
  rw [scV_eq]
  funext j
  obtain ⟨p, o, rfl⟩ : ∃ (p : Fin 200) (o : Fin 64), j = ix2 p o := ⟨j 0, j 1, eq_ix2 j⟩
  have hr : t.val * 200 + p.val < 10000 := by have := p.isLt; omega
  show k0_pay2 (F := Ideal) (iblk0 (V0 m ρ) c 2 t) (Cert.Gcn.h0 (aX m c) (aW1 m c)) (iblk0 (V0 m ρ) c 3 t) (ix2 p o)
    = H2 m c (((cfg0.win 4).blk t).view.emb (ix2 p o))
  rw [Cert.KernelIdeal.Pay.pay2_apply]
  have hemb : ((cfg0.win 4).blk t).view.emb (ix2 p o) = ix2 (⟨t.val * 200 + p.val, hr⟩ : Fin 10000) o := by
    funext a; apply Fin.ext
    match a with
    | ⟨0, _⟩ => show win0_4.index t (0 : Fin 2) * 200 + 1 * p.val = t.val * 200 + p.val; omega
    | ⟨1, _⟩ => show win0_4.index t (1 : Fin 2) * 64 + 1 * o.val = o.val; omega
  rw [hemb]
  show _ = Cert.Gcn.layer1 (fun k => aAdj m c (ix2 (⟨t.val * 200 + p.val, hr⟩ : Fin 10000) k)) (Cert.Gcn.h0 (aX m c) (aW1 m c)) (aW2 m c) o
  rw [show (fun k => iblk0 (V0 m ρ) c 2 t (ix2 p k)) = fun k => aAdj m c (ix2 (⟨t.val * 200 + p.val, hr⟩ : Fin 10000) k) from
      funext fun k => blk0_2 m ρ c t p k ⟨t.val * 200 + p.val, hr⟩ rfl,
    show (iblk0 (V0 m ρ) c 3 t : S64x128.Idx → EReal) = aW2 m c from funext (blk0_3 m ρ c t)]

/-- An index of the intermediate array is in point `t`'s block iff each coordinate is in the block's range. -/
theorem mem_blk0 (t : Fin cfg0.N) (i : S10000x64.Idx) :
    i ∈ ((cfg0.win 4).blk t).view.set ↔ ∀ a : Fin 2, win0_4.index t a * S200x64.size a ≤ (i a).val ∧ (i a).val < win0_4.index t a * S200x64.size a + S200x64.size a := by
  show i ∈ ((View.whole main_v0).slice (win0_4.rect t)).set ↔ _
  rw [View.set_slice_whole, Rect.mem_set_unit]
  exact Iff.rfl

/-- Every row is in some point's block: row `r` in that of point `r / 200`. -/
theorem cover0 (i : S10000x64.Idx) : ∃ t : Fin cfg0.N, (cfg0.win 4).flush t = true ∧ i ∈ ((cfg0.win 4).blk t).view.set := by
  have hi0 : (i 0).val < 10000 := (i 0).isLt
  have hi1 : (i 1).val < 64 := (i 1).isLt
  have hN : cfg0.N = 50 := N_0
  refine ⟨⟨(i 0).val / 200, by rw [hN]; omega⟩, flush0_4 _, ?_⟩
  rw [mem_blk0]
  obtain ⟨-, -, -, -, -, -, -, -, e0, e1⟩ := idx0 ⟨(i 0).val / 200, by rw [hN]; omega⟩
  intro a
  match a with
  | ⟨0, _⟩ =>
    show win0_4.index _ (0 : Fin 2) * 200 ≤ (i 0).val ∧ (i 0).val < win0_4.index _ (0 : Fin 2) * 200 + 200
    rw [e0]; show (i 0).val / 200 * 200 ≤ (i 0).val ∧ (i 0).val < (i 0).val / 200 * 200 + 200; omega
  | ⟨1, _⟩ =>
    show win0_4.index _ (1 : Fin 2) * 64 ≤ (i 1).val ∧ (i 1).val < win0_4.index _ (1 : Fin 2) * 64 + 64
    rw [e1]; omega

/-- The intermediate array after the first pass is `h2`, whole. -/
theorem final0 (c : Dev nD) : (dat0 (V0 m ρ) c).arrAt 4 cfg0.N = H2 m c :=
  (dat0 (V0 m ρ) c).arrAt_eq_of_cover 4 (H2 m c) (fun t _ => flushed0_eq m ρ c t) cover0

/-! ## The second pass -/

theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The second pass finds the intermediate array at `h2` and `adj` as launched. -/
theorem V1_v0 (c : Dev nD) : V1 m ρ c main_v0 = H2 m c := (W1_main_v0 m ρ c).trans (final0 m ρ c)
theorem V1_adj (c : Dev nD) : V1 m ρ c main_arg1 = aAdj m c := W1_main_arg1 m ρ c

theorem blk1_0 (c : Dev nD) (t : Fin cfg1.N) (j : S10000x64.Idx) : iblk1 (V1 m ρ) c 0 t j = H2 m c j := by
  obtain ⟨e0, e1, -⟩ := idx1 t
  show V1 m ρ c main_v0 (((cfg1.win 0).blk t).view.emb j) = H2 m c j
  rw [V1_v0]
  refine congrArg (H2 m c) (funext fun a => Fin.ext ?_)
  match a with
  | ⟨0, _⟩ => show win1_0.index t (0 : Fin 2) * 10000 + 1 * (j 0).val = (j 0).val; omega
  | ⟨1, _⟩ => show win1_0.index t (1 : Fin 2) * 64 + 1 * (j 1).val = (j 1).val; omega

theorem blk1_1 (c : Dev nD) (t : Fin cfg1.N) (p : Fin 200) (k : Fin 10000) (r : Fin 10000) (hr : r.val = t.val * 200 + p.val) :
    iblk1 (V1 m ρ) c 1 t (ix2 p k) = aAdj m c (ix2 r k) := by
  obtain ⟨-, -, e0, e1, -⟩ := idx1 t
  show V1 m ρ c main_arg1 (((cfg1.win 1).blk t).view.emb (ix2 p k)) = aAdj m c (ix2 r k)
  rw [V1_adj]
  refine congrArg (aAdj m c) (funext fun a => Fin.ext ?_)
  match a with
  | ⟨0, _⟩ => show win1_1.index t (0 : Fin 2) * 200 + 1 * p.val = r.val; omega
  | ⟨1, _⟩ => show win1_1.index t (1 : Fin 2) * 10000 + 1 * k.val = k.val; omega

/-- The result array the second pass leaves. -/
abbrev OUT (c : Dev nD) : Cert.Gcn.Arr 10000 64 := Cert.Gcn.out (aAdj m c) (aX m c) (aW1 m c) (aW2 m c)

/-- WHAT POINT `t` WRITES BACK is block `t` of the specification's result. -/
theorem flushed1_eq (c : Dev nD) (t : Fin cfg1.N) :
    (dat1 (V1 m ρ) c).flushed 2 t = ((cfg1.win 2).blk t).view.read (Elt Ideal) (OUT m c) := by
  have hN : t.val < 50 := lt_of_lt_of_eq t.isLt N_1
  obtain ⟨-, -, -, -, e0, e1⟩ := idx1 t
  show (cfg1.win 2).cut (grid1.coords t) ((dat1 (V1 m ρ) c).after 2 t) = _
  rw [after1_2]
  unfold out1_2
  rw [View.canon_unit_zero hz]
  simp only [View.ld_unit_zero (S := S200x10000) hz, View.ld_unit_zero (S := S10000x64) hz]
  funext j
  obtain ⟨p, q, rfl⟩ : ∃ (p : Fin 200) (q : Fin 64), j = ix2 p q := ⟨j 0, j 1, eq_ix2 j⟩
  have hr : t.val * 200 + p.val < 10000 := by have := p.isLt; omega
  show k1_pay1 (F := Ideal) (iblk1 (V1 m ρ) c 1 t) (iblk1 (V1 m ρ) c 0 t) (ix2 p q)
    = OUT m c (((cfg1.win 2).blk t).view.emb (ix2 p q))
  rw [Cert.KernelIdeal.Pay.pay3_apply]
  have hemb : ((cfg1.win 2).blk t).view.emb (ix2 p q) = ix2 (⟨t.val * 200 + p.val, hr⟩ : Fin 10000) q := by
    funext a; apply Fin.ext
    match a with
    | ⟨0, _⟩ => show win1_2.index t (0 : Fin 2) * 200 + 1 * p.val = t.val * 200 + p.val; omega
    | ⟨1, _⟩ => show win1_2.index t (1 : Fin 2) * 64 + 1 * q.val = q.val; omega
  rw [hemb]
  show _ = Cert.Gcn.outRow (fun k => aAdj m c (ix2 (⟨t.val * 200 + p.val, hr⟩ : Fin 10000) k)) (H2 m c) q
  rw [show (fun k => iblk1 (V1 m ρ) c 1 t (ix2 p k)) = fun k => aAdj m c (ix2 (⟨t.val * 200 + p.val, hr⟩ : Fin 10000) k) from
      funext fun k => blk1_1 m ρ c t p k ⟨t.val * 200 + p.val, hr⟩ rfl,
    show (iblk1 (V1 m ρ) c 0 t : S10000x64.Idx → EReal) = H2 m c from funext (blk1_0 m ρ c t)]

theorem mem_blk1 (t : Fin cfg1.N) (i : S10000x64.Idx) :
    i ∈ ((cfg1.win 2).blk t).view.set ↔ ∀ a : Fin 2, win1_2.index t a * S200x64.size a ≤ (i a).val ∧ (i a).val < win1_2.index t a * S200x64.size a + S200x64.size a := by
  show i ∈ ((View.whole main_v1).slice (win1_2.rect t)).set ↔ _
  rw [View.set_slice_whole, Rect.mem_set_unit]
  exact Iff.rfl

theorem cover1 (i : S10000x64.Idx) : ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 50 := N_1
  refine ⟨⟨(i 0).val / 200, by rw [hN]; omega⟩, flush1_2 _, ?_⟩
  rw [mem_blk1]
  obtain ⟨-, -, -, -, e0, e1⟩ := idx1 ⟨(i 0).val / 200, by rw [hN]; omega⟩
  intro a
  match a with
  | ⟨0, _⟩ =>
    show win1_2.index _ (0 : Fin 2) * 200 ≤ (i 0).val ∧ (i 0).val < win1_2.index _ (0 : Fin 2) * 200 + 200
    rw [e0]; show (i 0).val / 200 * 200 ≤ (i 0).val ∧ (i 0).val < (i 0).val / 200 * 200 + 200; omega
  | ⟨1, _⟩ =>
    show win1_2.index _ (1 : Fin 2) * 64 ≤ (i 1).val ∧ (i 1).val < win1_2.index _ (1 : Fin 2) * 64 + 64
    rw [e1]; omega

/-- The result array after the second pass is the specification's `out`, whole. -/
theorem final1 (c : Dev nD) : (dat1 (V1 m ρ) c).arrAt 2 cfg1.N = OUT m c :=
  (dat1 (V1 m ρ) c).arrAt_eq_of_cover 2 (OUT m c) (fun t _ => flushed1_eq m ρ c t) cover1

/-! ## The run, read -/

/-- The idealized kernel's run with its result named: the specification of the launch contents of the four
    arguments, which end unchanged. -/
theorem run : θ_run defs (onTc (τ := τ) (main (F := Ideal))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final1 m ρ c), (h c).2⟩) (run_main (F := Ideal) m ρ)

end Cert.KernelIdeal.KValue

end
-- ==== Proof.RefValue.lean ====
/-
  The reference program's result, read one operation at a time, is the specification's `out` of the four argument
  arrays: the two transposes turn each product with `Wᵀ` into a sum over the second coordinate of `W`; `max (−∞, ·)` over
  the row maximum is the row maximum; the keep-dimension broadcasts read a row's scalar at every column.
-/
import proofs.«161516_g87050397155999_cont_sun_m_51_2_alg».proof.Proof.RefReadP
import proofs.«161516_g87050397155999_cont_sun_m_51_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S64x128, .f32⟩ : BufTy).Contents (Elt Ideal))

/-- The first product: the transpose of `W1` read at (l, j) is `W1` at (j, l), so entry (n, j) of `x · W1ᵀ` is the sum over
    `l` of `x (n, l) · W1 (j, l)`. -/
theorem v1_eq : val_main_v1 (F := Ideal) x0 x2 = Cert.Gcn.h0 x0 x2 := by
  funext i
  obtain ⟨n, j, rfl⟩ : ∃ (n : Fin 10000) (j : Fin 128), i = ix2 n j := ⟨i 0, i 1, eq_ix2 i⟩
  rw [val_main_v1_apply]
  show _ = ∑ l : Fin 128, x0 (ix2 n l) * x2 (ix2 j l)
  refine Finset.sum_congr rfl fun l _ => ?_
  have el : lidx_main_v1 (ix2 n j) l = ix2 n l :=
    funext fun a => Fin.ext (by match a with | ⟨0, _⟩ => rfl | ⟨1, _⟩ => rfl)
  have er : idx_main_v0 (ridx_main_v1 (ix2 n j) l) = ix2 j l :=
    funext fun a => Fin.ext (by match a with | ⟨0, _⟩ => rfl | ⟨1, _⟩ => rfl)
  rw [val_main_v0_apply, el, er]

/-- The first aggregation, clamped at zero: entry (r, j) is `max (Σ_k adj (r, k) · h0 (k, j), 0)`. -/
theorem v3_at (r : Fin 10000) (j : Fin 128) :
    val_main_v3 (F := Ideal) x0 x1 x2 (ix2 r j)
      = max (∑ k : Fin 10000, x1 (ix2 r k) * Cert.Gcn.h0 x0 x2 (ix2 k j)) Cert.Gcn.zero32 := by
  rw [val_main_v3_apply, val_main_v2_apply, val_main_call0_v0_apply, val_main_call0_cst_apply, v1_eq]
  show max _ _ = max _ _
  refine congrArg (max · Cert.Gcn.zero32) (Finset.sum_congr rfl fun k _ => ?_)
  have el : lidx_main_v2 (ix2 r j) k = ix2 r k :=
    funext fun a => Fin.ext (by match a with | ⟨0, _⟩ => rfl | ⟨1, _⟩ => rfl)
  have er : ridx_main_v2 (ix2 r j) k = ix2 k j :=
    funext fun a => Fin.ext (by match a with | ⟨0, _⟩ => rfl | ⟨1, _⟩ => rfl)
  rw [el, er]

/-- The second projection: as whole arrays, the reference's fifth stage is the specification's `h2`. -/
theorem v5_eq : val_main_v5 (F := Ideal) x0 x1 x2 x3 = Cert.Gcn.h2 x1 x0 x2 x3 := by
  funext i
  obtain ⟨r, q, rfl⟩ : ∃ (r : Fin 10000) (q : Fin 64), i = ix2 r q := ⟨i 0, i 1, eq_ix2 i⟩
  rw [val_main_v5_apply]
  show _ = ∑ j : Fin 128, max (∑ k : Fin 10000, x1 (ix2 r k) * Cert.Gcn.h0 x0 x2 (ix2 k j)) Cert.Gcn.zero32 * x3 (ix2 q j)
  refine Finset.sum_congr rfl fun j _ => ?_
  have el : lidx_main_v5 (ix2 r q) j = ix2 r j :=
    funext fun a => Fin.ext (by match a with | ⟨0, _⟩ => rfl | ⟨1, _⟩ => rfl)
  have er : idx_main_v4 (ridx_main_v5 (ix2 r q) j) = ix2 q j :=
    funext fun a => Fin.ext (by match a with | ⟨0, _⟩ => rfl | ⟨1, _⟩ => rfl)
  rw [val_main_v4_apply, el, er, v3_at]

/-- The logits: entry (r, q) is `Σ_k adj (r, k) · h2 (k, q)`. -/
theorem v6_at (r : Fin 10000) (q : Fin 64) :
    val_main_v6 (F := Ideal) x0 x1 x2 x3 (ix2 r q)
      = ∑ k : Fin 10000, x1 (ix2 r k) * Cert.Gcn.h2 x1 x0 x2 x3 (ix2 k q) := by
  rw [val_main_v6_apply, v5_eq]
  refine Finset.sum_congr rfl fun k _ => ?_
  have el : lidx_main_v6 (ix2 r q) k = ix2 r k :=
    funext fun a => Fin.ext (by match a with | ⟨0, _⟩ => rfl | ⟨1, _⟩ => rfl)
  have er : ridx_main_v6 (ix2 r q) k = ix2 k q :=
    funext fun a => Fin.ext (by match a with | ⟨0, _⟩ => rfl | ⟨1, _⟩ => rfl)
  rw [el, er]

/-- Row `r` of the logits, as the reference computes it. -/
abbrev zrow (r : Fin 10000) : Fin 64 → EReal := fun q => val_main_v6 (F := Ideal) x0 x1 x2 x3 (ix2 r q)

/-- The fold of `max` from a value is at least that value. -/
theorem ninf_le_rowmax (z : Fin 64 → EReal) : Cert.Gcn.ninf32 ≤ Cert.Gcn.rowmax z :=
  (Finset.le_fold_max (Cert.Gcn.ninf32)).2 (Or.inl le_rfl)

/-- The reduction over the second axis: at row `r` it is the fold of `max` from −∞ over the row's 64 entries. -/
theorem call1_v0_at (r : Fin 10000) :
    val_main_call1_v0 (F := Ideal) x0 x1 x2 x3 (ix1 r) = Cert.Gcn.rowmax (zrow x0 x1 x2 x3 r) := by
  unfold val_main_call1_v0
  show _ = Cert.Gcn.rowmax (fun q => val_main_v6 (F := Ideal) x0 x1 x2 x3 (ix2 r q))
  generalize val_main_v6 (F := Ideal) x0 x1 x2 x3 = y
  have hR : S10000x64.Reduces [1] S10000 := by decide
  refine (Host.reduce_eq_fold_single (FloatOps.maximumf (F := Ideal) (φ := .f32)) y (val_main_call1_cst (F := Ideal))
    reducesTo_S10000x64_S10000_d1 hR h_S_ (ix1 r)).trans ?_
  have ef : (y ∘ hR.lift (ix1 r)) = fun q : Fin 64 => y (ix2 r q) :=
    funext fun q => congrArg y (funext fun a => Fin.ext (by match a with | ⟨0, _⟩ => rfl | ⟨1, _⟩ => rfl))
  rw [ef]
  rfl

/-- `max (−∞, m)` of the row maximum `m` is `m`: the fold started from −∞. -/
theorem call1_v2_at (r : Fin 10000) :
    val_main_call1_v2 (F := Ideal) x0 x1 x2 x3 (ix1 r) = Cert.Gcn.rowmax (zrow x0 x1 x2 x3 r) := by
  rw [val_main_call1_v2_apply, val_main_call1_v1_apply, val_main_call1_cst_0_apply, call1_v0_at]
  show max Cert.Gcn.ninf32 _ = _
  exact max_eq_right (ninf_le_rowmax _)

/-- The two keep-dimension broadcasts read row `r`'s maximum at every column. -/
theorem call1_v4_at (r : Fin 10000) (q : Fin 64) :
    val_main_call1_v4 (F := Ideal) x0 x1 x2 x3 (ix2 r q) = Cert.Gcn.rowmax (zrow x0 x1 x2 x3 r) := by
  have e : idx_main_call1_v3 (idx_main_call1_v4 (ix2 r q)) = ix1 r :=
    funext fun a => Fin.ext (by match a with | ⟨0, _⟩ => rfl)
  rw [val_main_call1_v4_apply, val_main_call1_v3_apply, e, call1_v2_at]

/-- The shifted logits. -/
theorem call1_v5_at (r : Fin 10000) (q : Fin 64) :
    val_main_call1_v5 (F := Ideal) x0 x1 x2 x3 (ix2 r q)
      = zrow x0 x1 x2 x3 r q - Cert.Gcn.rowmax (zrow x0 x1 x2 x3 r) := by
  rw [val_main_call1_v5_apply, call1_v4_at]
  rfl

/-- The row's sum of exponentials: the reduction's initial value is the pattern of `0.0`, which is 0. -/
theorem call1_v7_at (r : Fin 10000) :
    val_main_call1_v7 (F := Ideal) x0 x1 x2 x3 (ix1 r)
      = ∑ q' : Fin 64, Ideal.exp (zrow x0 x1 x2 x3 r q' - Cert.Gcn.rowmax (zrow x0 x1 x2 x3 r)) := by
  rw [val_main_call1_v7_apply, val_main_call1_cst_1_apply]
  show Ideal.ofBits .f32 0x00000000#32 + _ = _
  rw [Ideal.ofBits_zero_f32, zero_add]
  refine Finset.sum_congr rfl fun k _ => ?_
  have e : idx_main_call1_v7 (ix1 r) k = ix2 r k :=
    funext fun a => Fin.ext (by match a with | ⟨0, _⟩ => rfl | ⟨1, _⟩ => rfl)
  rw [e, val_main_call1_v6_apply, call1_v5_at]
  rfl

/-- The logarithm of the row's sum, read at every column through the two keep-dimension broadcasts. -/
theorem call1_v10_at (r : Fin 10000) (q : Fin 64) :
    val_main_call1_v10 (F := Ideal) x0 x1 x2 x3 (ix2 r q)
      = Ideal.log (∑ q' : Fin 64, Ideal.exp (zrow x0 x1 x2 x3 r q' - Cert.Gcn.rowmax (zrow x0 x1 x2 x3 r))) := by
  have e : idx_main_call1_v8 (idx_main_call1_v10 (ix2 r q)) = ix1 r :=
    funext fun a => Fin.ext (by match a with | ⟨0, _⟩ => rfl)
  rw [val_main_call1_v10_apply, val_main_call1_v9_apply, val_main_call1_v8_apply, e, call1_v7_at]
  rfl

/-- The last stage at (r, q): the log-softmax of row `r` of the logits at its entry `q`. -/
theorem v7_at (r : Fin 10000) (q : Fin 64) :
    val_main_v7 (F := Ideal) x0 x1 x2 x3 (ix2 r q) = Cert.Gcn.lsm (zrow x0 x1 x2 x3 r) q := by
  rw [val_main_v7_apply, call1_v5_at, call1_v10_at]
  rfl

/-- Row `r` of the logits is the specification's: the sum over `k` of `adj (r, k) · h2 (k, ·)`. -/
theorem zrow_eq (r : Fin 10000) :
    zrow x0 x1 x2 x3 r = fun q' => ∑ k : Fin 10000, x1 (ix2 r k) * Cert.Gcn.h2 x1 x0 x2 x3 (ix2 k q') :=
  funext fun q' => v6_at x0 x1 x2 x3 r q'

end Stages

/-- The reference's last stage is the specification, as whole arrays. (Arguments in the program's order: `x`, `adj`,
    `W1`, `W2`.) -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S64x128, .f32⟩ : BufTy).Contents (Elt Ideal)) :
    val_main_v7 (F := Ideal) x0 x1 x2 x3 = Cert.Gcn.out x1 x0 x2 x3 := by
  funext i
  obtain ⟨r, q, rfl⟩ : ∃ (r : Fin 10000) (q : Fin 64), i = ix2 r q := ⟨i 0, i 1, eq_ix2 i⟩
  rw [v7_at, zrow_eq]
  rfl

end Cert.ReferenceIdeal.RefValue

end
-- ==== Proof.lean ====
/-
  The certificate of a two-layer graph convolution with a row-wise log-softmax,

      out = log_softmax (adj · (max (adj · (x · W1ᵀ), 0) · W2ᵀ)),

  computed by two pipelined passes over 200-row blocks of `adj` (the first keeps `x · W1ᵀ` in a scratch buffer from its
  first grid point on and writes `max (adj · h0, 0) · W2ᵀ` block by block; the second reads that array whole and writes
  the log-softmax rows), against the plain reference.

  * The frames of the word-level and of the idealized kernel: each pass is a pipeline region whose body obligation is
    proved per grid point (the first pass by cases on the first point, its invariant naming the scratch's contents from
    then on), the two regions are composed in program order, and the argument arrays are read back through the region
    boundaries to the launch memory (Proof/KRegion0, KRegion1, KRun for the word-level program; Proof/KIRegion0,
    KIRegion1, KIRun for the idealized one: the same text at either instance).
  * The reference's frame is its run with the result dropped.
  * No operation was rewritten by the idealization, so there is nothing to preserve.
  * Over the extended reals both programs end holding ONE function of the argument arrays, the specification's `out`
    (Proof/Spec): the kernel because each block written back is the block of `out`'s rows and the blocks tile the array
    (Proof/Payloads, Proof/KernelValue), the reference operation by operation (Proof/RefValue). The two sides differ only
    in how the sums are indexed (a product with a transposed matrix against a contraction of second coordinates), in
    `max (−∞, ·)` over a row maximum, and in a change of float format that is the identity here: no law used needs the
    inputs finite.
-/
import proofs.«161516_g87050397155999_cont_sun_m_51_2_alg».proof.Defs
import proofs.«161516_g87050397155999_cont_sun_m_51_2_alg».proof.Proof.Gen.Kernel
import proofs.«161516_g87050397155999_cont_sun_m_51_2_alg».proof.Proof.Gen.KernelIdeal
import proofs.«161516_g87050397155999_cont_sun_m_51_2_alg».proof.Proof.Gen.ReferenceIdeal
import proofs.«161516_g87050397155999_cont_sun_m_51_2_alg».proof.Proof.Gen.Pre_finite_inputs
import proofs.«161516_g87050397155999_cont_sun_m_51_2_alg».proof.Proof.KRun
import proofs.«161516_g87050397155999_cont_sun_m_51_2_alg».proof.Proof.KernelValue
import proofs.«161516_g87050397155999_cont_sun_m_51_2_alg».proof.Proof.RefRunP
import proofs.«161516_g87050397155999_cont_sun_m_51_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end holding the specification's `out` of the launch contents of `adj`, `x`, `W1`, `W2`. -/
theorem algebraic : Cert.algebraic_KernelIdeal_ReferenceIdeal := by
  intro m ρ m' ρ' _ hagree
  refine ⟨fun c => Cert.KernelIdeal.KValue.OUT m c, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v7_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
